-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16x1x1 : Shape := ⟨3, ![16, 1, 1]⟩
abbrev S1024x1 : Shape := ⟨2, ![1024, 1]⟩
abbrev S1x1024 : Shape := ⟨2, ![1, 1024]⟩
abbrev S1x1x1 : Shape := ⟨3, ![1, 1, 1]⟩
abbrev S1x1 : Shape := ⟨2, ![1, 1]⟩
abbrev S1024x1024 : Shape := ⟨2, ![1024, 1024]⟩
abbrev S1x1024x1024 : Shape := ⟨3, ![1, 1024, 1024]⟩
abbrev S1 : Shape := ⟨1, ![1]⟩

abbrev nBuf : Space → Nat
  | .hbm => 23
  | .vmem => 11
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x1, .f32⟩
  | .hbm, ⟨13, _⟩ => ⟨S1x16384, .f32⟩
  | .hbm, ⟨14, _⟩ => ⟨S16x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v36 : BitVec 1 := Scalar.cmpi .eq arg1 c15_i32
  let v37 : BitVec 32 := Scalar.extui v36
  let c0_i32_15 : BitVec 32 := 0#32
  let v38 : BitVec 1 := Scalar.cmpi .ne v37 c0_i32_15
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S16x1x1_S_d0_1_2 : S16x1x1.ReducesTo [0, 1, 2] S_
  h_S_ : 0 < S_.numel
  reducesTo_S16384_S_d0 : S16384.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S16x1x1.size a
  hwx0_4 : ∀ i : grid0.Coords, EltTy.bits .f32 = 32 ∨ (Rect.block (s := S16x1x1) S1x1x1.size (cc0_transform_4 i) (hinb0_4 i)).WholeWords (EltTy.packing .f32)

variable [Facts₀]

abbrev win0_0 : Pipeline.Window sig grid0 :=
  Pipeline.Window.ofSpec (Memref.whole main_v6) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 40
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384x16384, .f32⟩
  | .hbm, ⟨24, _⟩ => ⟨S16384x16384, .f32⟩
  | .hbm, ⟨25, _⟩ => ⟨S16384x16384, .f32⟩
  | .hbm, ⟨26, _⟩ => ⟨S16384x1, .f32⟩
  | .hbm, ⟨27, _⟩ => ⟨S1x16384, .f32⟩
  | .hbm, ⟨28, _⟩ => ⟨S16384x16384, .f32⟩
  | .hbm, ⟨29, _⟩ => ⟨S16384x16384, .f32⟩
  | .hbm, ⟨30, _⟩ => ⟨S16384x16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x16384, .f32⟩
  | .hbm, ⟨37, _⟩ => ⟨S_, .f32⟩
  | .hbm, ⟨38, _⟩ => ⟨S_, .f32⟩
  | .hbm, ⟨39, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_cst : Ref sig .tc := ⟨.hbm, 19, rfl⟩
abbrev main_call0_v0 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384_S_d0 : S16384.ReducesTo [0] S_
  h_S_ : 0 < S_.numel
  reducesTo_S16384x16384_S_d0_1 : S16384x16384.ReducesTo [0, 1] S_

variable [Facts₀]

class Facts : Prop extends Facts₀ where

variable [Facts]
-- ==== Proof.KernelPieces.lean ====
/-
  What one grid point of the kernel leaves in its accumulator and, at the last column tile, in its output block,
  read off the pieces its stores were found to write.

  The body has three control cases. At the first column tile (case A) it stores zero into the 1 × 1 accumulator, reads
  it back, and stores "accumulator + tile total": the accumulator ends at the tile payload applied to the zero store.
  At a middle column tile (case B) it stores "previous accumulator + tile total". At the last column tile (case C) it
  does the same and then copies the accumulator into the 1 × 1 × 1 output block. Each store covers its whole buffer,
  so what the buffer holds afterwards is the last store's payload, the loads reading whole buffers.
-/
import proofs.«146855_j38147899523693_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Accum

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First column tile: the accumulator ends at the tile payload over the zero just stored. -/
theorem scratch_A (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i) (x0 : Vec F S1024x1 .f32) (x1 : Vec F S1x1024 .f32) (x2 : Vec F S1024x1 .f32) (x3 : Vec F S1x1024 .f32) :
    sout0_A_0 c i a2 h2 a3 h3 a4 h4 a5 h5 a6 h6 a7 h7 hc0 hc1 x0 x1 x2 x3 = k0_pay3 x0 x1 x2 x3 (k0_pay2 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  simp only [View.readAt_eq_ld, h2.read_unread, h3.read_unread, h4.read_unread, h5.read_unread, h7.read_unread, View.ld_unit_zero (S := S1024x1) hz2, View.ld_unit_zero (S := S1x1024) hz2, View.ld_unit_zero (S := S1x1) hz2]

/-- Middle column tile: the accumulator ends at the tile payload over what the point before left. -/
theorem scratch_B (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i) (x0 : Vec F S1024x1 .f32) (x1 : Vec F S1x1024 .f32) (x2 : Vec F S1024x1 .f32) (x3 : Vec F S1x1024 .f32) (xs0 : Vec F S1x1 .f32) :
    sout0_B_0 c i a2 h2 a3 h3 a4 h4 a5 h5 a6 h6 a7 h7 hc0 hc1 x0 x1 x2 x3 xs0 = k0_pay3 x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  simp only [View.readAt_eq_ld, h2.read_unread, h3.read_unread, h4.read_unread, h5.read_unread, h7.read_unread, View.ld_unit_zero (S := S1024x1) hz2, View.ld_unit_zero (S := S1x1024) hz2, View.ld_unit_zero (S := S1x1) hz2]

/-- Last column tile: the accumulator likewise, -/
theorem scratch_C (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1024x1 .f32) (x1 : Vec F S1x1024 .f32) (x2 : Vec F S1024x1 .f32) (x3 : Vec F S1x1024 .f32) (xs0 : Vec F S1x1 .f32) :
    sout0_C_0 c i a2 h2 a3 h3 a4 h4 a5 h5 a6 h6 a7 h7 hc0 hc1 x0 x1 x2 x3 xs0 = k0_pay3 x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  simp only [View.readAt_eq_ld, h2.read_unread, h3.read_unread, h4.read_unread, h5.read_unread, h7.read_unread, View.ld_unit_zero (S := S1024x1) hz2, View.ld_unit_zero (S := S1x1024) hz2, View.ld_unit_zero (S := S1x1) hz2]

/-- and the output block is the accumulator just stored, viewed 1 × 1 × 1. -/
theorem out_C (c : Dev nD) (i : grid0.Coords) (a2 : Memref sig .tc .vmem S1024x1 .f32) (h2 : a2.IsWhole) (a3 : Memref sig .tc .vmem S1x1024 .f32) (h3 : a3.IsWhole) (a4 : Memref sig .tc .vmem S1024x1 .f32) (h4 : a4.IsWhole) (a5 : Memref sig .tc .vmem S1x1024 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1024x1 .f32) (x1 : Vec F S1x1024 .f32) (x2 : Vec F S1024x1 .f32) (x3 : Vec F S1x1024 .f32) (xs0 : Vec F S1x1 .f32) :
    out0_C_4 c i a2 h2 a3 h3 a4 h4 a5 h5 a6 h6 a7 h7 hc0 hc1 x0 x1 x2 x3 xs0 = k0_pay1 (k0_pay3 x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3]
  simp only [View.readCov_unit_zero (S := S1x1) _ hz2, View.readAt_eq_ld, h2.read_unread, h3.read_unread, h4.read_unread, h5.read_unread, h7.read_unread, View.ld_unit_zero (S := S1024x1) hz2, View.ld_unit_zero (S := S1x1024) hz2, View.ld_unit_zero (S := S1x1) hz2]

end Cert.KernelIdeal.Accum

end
-- ==== Proof.PairSums.lean ====
/-
  The pairwise loss as sums over the extended reals, with no program in sight.

  For predictions p and two weight vectors u (rows) and v (columns), all indexed by 0 … 16383, the quantity both
  programs compute before the final division is the total over all ordered pairs (r, c) of

      ((1 - (p r - p c))² + 1 · max (1 - (p r - p c)) 0) · (u r · v c).

  The kernel reaches it tile by tile: the index range is cut into 16 consecutive stretches of 1024, row index
  r = 1024·I + a and column index c = 1024·J + b, a tile (I, J) sums its 1024 × 1024 pairs, a row of tiles sums over J,
  and the sixteen row totals are added at the end. Addition on the extended reals is commutative and associative, so
  regrouping the total by tiles changes nothing (no finiteness is needed): `sum_tiles`.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

open scoped BigOperators

namespace Cert.PairSums

open Idealize.ShloMosaic Idealize.ShloMosaic.ValueIdx

/-- The literal one and the literal zero both programs use, as extended reals (never evaluated: the same words
    stand on both sides). -/
abbrev one : EReal := Ideal.ofBits .f32 0x3F800000#32
abbrev zero : EReal := Ideal.ofBits .f32 0x00000000#32

/-- One ordered pair's contribution: x, y the two predictions, a, b the row and column weights. -/
def pairTerm (x y a b : EReal) : EReal :=
  ((one - (x - y)) * (one - (x - y)) + one * max (one - (x - y)) zero) * (a * b)

/-- Index a of stretch I is position 1024·I + a. -/
def rowOf (I : Fin 16) (a : Fin 1024) : Fin 16384 := ⟨1024 * I.val + a.val, by have := I.isLt; have := a.isLt; omega⟩

/-- Every position lies in exactly one stretch: (I, a) ↦ 1024·I + a is a bijection. -/
def stretchEquiv : Fin 16 × Fin 1024 ≃ Fin 16384 where
  toFun q := rowOf q.1 q.2
  invFun r := (⟨r.val / 1024, by have := r.isLt; omega⟩, ⟨r.val % 1024, Nat.mod_lt _ (by decide)⟩)
  left_inv q := by
    obtain ⟨I, a⟩ := q
    have hI := I.isLt; have ha := a.isLt
    refine Prod.ext (Fin.ext ?_) (Fin.ext ?_)
    · show (1024 * I.val + a.val) / 1024 = I.val; omega
    · show (1024 * I.val + a.val) % 1024 = a.val; omega
  right_inv r := by
    refine Fin.ext ?_
    show 1024 * (r.val / 1024) + r.val % 1024 = r.val
    omega

/-- A sum over all positions is the sum over the stretches of the sums inside each. -/
theorem sum_stretches {M : Type*} [AddCommMonoid M] (g : Fin 16384 → M) :
    ∑ r, g r = ∑ I : Fin 16, ∑ a : Fin 1024, g (rowOf I a) := by
  rw [← Equiv.sum_comp stretchEquiv g, Fintype.sum_prod_type]
  rfl

section
variable (p u v : (⟨1, ![16384]⟩ : Shape).Idx → EReal)

/-- Tile (I, J): its 1024 × 1024 pairs. -/
def tileSum (I J : Fin 16) : EReal :=
  ∑ a : Fin 1024, ∑ b : Fin 1024,
    pairTerm (p (ix1 (rowOf I a))) (p (ix1 (rowOf J b))) (u (ix1 (rowOf I a))) (v (ix1 (rowOf J b)))

/-- Row I of tiles: the sixteen tiles (I, 0), …, (I, 15). -/
def rowSum (I : Fin 16) : EReal := ∑ J : Fin 16, tileSum p u v I J

/-- Every ordered pair. -/
def pairTotal : EReal :=
  ∑ r : Fin 16384, ∑ c : Fin 16384, pairTerm (p (ix1 r)) (p (ix1 c)) (u (ix1 r)) (v (ix1 c))

/-- Grouping the pairs by tiles, and the tiles by rows, gives the same total. -/
theorem sum_tiles : ∑ I : Fin 16, rowSum p u v I = pairTotal p u v := by
  unfold pairTotal rowSum tileSum
  rw [sum_stretches]
  refine Finset.sum_congr rfl fun I _ => ?_
  rw [Finset.sum_comm]
  refine Finset.sum_congr rfl fun a _ => ?_
  rw [sum_stretches]

/-- Tile (I, J) with the column stretch given as a natural number (zero beyond the last stretch): the form the
    running total over the grid is stated in. -/
def tileN (I : Fin 16) (J : ℕ) : EReal := if hJ : J < 16 then tileSum p u v I ⟨J, hJ⟩ else 0

/-- The running total of row I after its first k tiles. -/
def partialRow (I : Fin 16) (k : ℕ) : EReal := ∑ J ∈ Finset.range k, tileN p u v I J

theorem partialRow_one (I : Fin 16) : partialRow p u v I 1 = tileN p u v I 0 := by
  unfold partialRow; rw [Finset.sum_range_one]

theorem partialRow_succ (I : Fin 16) (k : ℕ) :
    partialRow p u v I (k + 1) = partialRow p u v I k + tileN p u v I k := by
  unfold partialRow; rw [Finset.sum_range_succ]

/-- After all sixteen tiles the running total is the row's total. -/
theorem partialRow_full (I : Fin 16) : partialRow p u v I 16 = rowSum p u v I := by
  unfold partialRow rowSum
  rw [Finset.sum_range]
  refine Finset.sum_congr rfl fun J _ => ?_
  unfold tileN
  rw [dif_pos J.isLt]

end

/-! ## The loss -/

section
variable (p : (⟨1, ![16384]⟩ : Shape).Idx → EReal) (tg : (⟨1, ![16384]⟩ : Shape).Idx → BitVec 32)

/-- The weight vector "label equals k", as the programs form it: the comparison's bit converted to a float. -/
def weightOf (k : BitVec 32) : (⟨1, ![16384]⟩ : Shape).Idx → EReal :=
  fun i => FloatOps.uitofp (F := Ideal) .f32 (IntOp.cmpi .eq (tg i) k)

/-- How many labels equal k, as a float sum from the literal zero. -/
def countOf (k : BitVec 32) : EReal := zero + ∑ i, weightOf tg k i

/-- The loss both programs return: the total over all pairs, rows weighted by "label is 1" and columns by "label is 0",
    divided by the product of the two counts (the division is the host's on both sides, whatever it does at zero). -/
def loss : EReal :=
  Ideal.div (zero + pairTotal p (weightOf tg 1#32) (weightOf tg 0#32)) (countOf tg 1#32 * countOf tg 0#32)

end

/-! ## Sums over index sets with unit axes -/

/-- The indices of a 16 × 1 × 1 array are its sixteen rows. -/
def rows16 : Fin 16 ≃ (⟨3, ![16, 1, 1]⟩ : Shape).Idx where
  toFun I := ix3 I 0 0
  invFun i := i 0
  left_inv _ := rfl
  right_inv i := by
    have h1 : i 1 = (0 : Fin 1) := @Subsingleton.elim (Fin 1) _ (i 1) 0
    have h2 : i 2 = (0 : Fin 1) := @Subsingleton.elim (Fin 1) _ (i 2) 0
    have e := eq_ix3 i
    rw [h1, h2] at e
    exact e.symm

theorem sum_rows16 {M : Type*} [AddCommMonoid M] (g : (⟨3, ![16, 1, 1]⟩ : Shape).Idx → M) :
    ∑ i, g i = ∑ I : Fin 16, g (ix3 I 0 0) :=
  (Equiv.sum_comp rows16 g).symm

/-- A 1024 × 1024 vector viewed as 1 × 1024 × 1024 has the same elements, so the same total. -/
theorem sum_shapeCast {s t : Shape} {M : Type} [AddCommMonoid M] (x : s.Idx → M) (h : s.ShapeCasts t) :
    ∑ j : t.Idx, shapeCast t x h j = ∑ i : s.Idx, x i := by
  unfold shapeCast
  exact Equiv.sum_comp (Shape.reshapeEquiv h) x

end Cert.PairSums

end
-- ==== Proof.LibColumns.lean ====
/-
  Columns: an [a] array viewed as [a, 1], and an [a, 1] array broadcast across [a, b], each read at an index.
  General facts about vector layout operations.
-/
import Idealize.ShloMosaic.Lib.Pipeline.Value
import Idealize.ShloMosaic.Lib.ValueIdx

noncomputable section

namespace Cert.LibColumns

open Idealize.ShloMosaic Idealize.ShloMosaic.ValueIdx

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumns

end
-- ==== Proof.TilePayload.lean ====
/-
  The arithmetic of one grid point, over the extended reals.

  The body broadcasts the row block of predictions (1024 × 1) and the column block (1 × 1024) to 1024 × 1024, forms
  (1 - (x - y))² + 1 · max (1 - (x - y)) 0 elementwise, multiplies by the product of the broadcast row weights and
  column weights, sums all 1024 × 1024 entries, and adds the total to the accumulator it was given. At an index the
  broadcasts read the block's row (or column) entry, the elementwise operations are the extended reals' own, and a sum
  over a vector re-shaped with a leading unit axis is the sum over its two coordinates.
-/
import proofs.«146855_j38147899523693_1_alg».proof.Proof.Gen.KernelIdeal.Skeleton
import proofs.«146855_j38147899523693_1_alg».proof.Proof.PairSums
import proofs.«146855_j38147899523693_1_alg».proof.Proof.LibColumns
import Idealize.ShloMosaic.Lib.Pipeline.Value
import Idealize.ShloMosaic.Lib.ValueLayout
import Idealize.ShloMosaic.PureOps.Ideal.Laws

noncomputable section

open scoped BigOperators
open Idealize.ShloMosaic Idealize.ShloMosaic.ValueIdx

namespace Cert.KernelIdeal.Accum

open Cert.KernelIdeal Cert.KernelIdeal.Gen Cert.PairSums

/-- The total of one tile, from the four blocks the point is given: rows from the first and third block, columns from
    the second and fourth. -/
def blockSum (x0 : Vec Ideal S1024x1 .f32) (x1 : Vec Ideal S1x1024 .f32) (x2 : Vec Ideal S1024x1 .f32) (x3 : Vec Ideal S1x1024 .f32) : EReal :=
  ∑ a : Fin 1024, ∑ b : Fin 1024, pairTerm (x0 (ix2 a 0)) (x1 (ix2 0 b)) (x2 (ix2 a 0)) (x3 (ix2 0 b))

/-- The body's reduction of a 1024 × 1024 vector (viewed 1 × 1024 × 1024, reduced over both long axes) is the sum over
    its two coordinates. -/
theorem tile_total (w : FVec Ideal S1024x1024 .f32) (hφ : FKind.Formats .f32)
    (hacc : (0x00000000#32 : BitVec 32) = FKind.add.neutral .f32 hφ) (k : S1.Idx) :
    multiReduction .add [1, 2] S1 (shapeCast S1x1024x1024 w shapeCasts_S1024x1024_S1x1024x1024) 0x00000000#32
        reduces_S1x1024x1024_S1 hφ hacc k = ∑ a : Fin 1024, ∑ b : Fin 1024, w (ix2 a b) :=
  (Ideal.multiReduction_add_total _ _ reduces_S1x1024x1024_S1 (fun b => match b with | ⟨0, _⟩ => rfl) hφ hacc k).trans
    ((sum_shapeCast w _).trans (sum_idx2 w))

/-- A re-shaped vector at an index is the vector at the matching index. -/
theorem shapeCast_eval {s t : Shape} {α : Type} (x : s.Idx → α) (h : s.ShapeCasts t) (k : t.Idx) :
    shapeCast t x h k = x (Shape.reshapeEquiv h k) := rfl

/-- The accumulator's new value: the old one plus the tile's total. -/
theorem pay3_eq (x0 : Vec Ideal S1024x1 .f32) (x1 : Vec Ideal S1x1024 .f32) (x2 : Vec Ideal S1024x1 .f32) (x3 : Vec Ideal S1x1024 .f32)
    (acc : Vec Ideal S1x1 .f32) (j : S1x1.Idx) :
    k0_pay3 (F := Ideal) x0 x1 x2 x3 acc j = acc j + blockSum x0 x1 x2 x3 := by
  unfold k0_pay3
  simp only [shapeCast_self]
  rw [addf_apply, broadcast_apply]
  unfold extractAt
  rw [shapeCast_eval (t := S1x1x1)]
  refine congrArg (acc j + ·) ((tile_total _ _ _ _).trans ?_)
  unfold blockSum
  refine Finset.sum_congr rfl fun a _ => Finset.sum_congr rfl fun b _ => ?_
  simp only [mulf_apply, addf_apply, subf_apply, maximumf_apply, broadcast_apply,
    Cert.LibColumns.broadcastTo_a1_ab_apply, broadcastTo_1b_ab_apply, Ideal.ofBits_def]
  rfl

/-- The reset stores the literal zero. -/
theorem pay2_eq (j : S1x1.Idx) : k0_pay2 (F := Ideal) j = zero := by
  unfold k0_pay2
  simp only [shapeCast_self]
  rfl

/-- The output block is the accumulator's one entry, whatever the index. -/
theorem pay1_const (e : EReal) (k : S1x1x1.Idx) : k0_pay1 (F := Ideal) (fun _ => e) k = e := by
  unfold k0_pay1
  rfl

end Cert.KernelIdeal.Accum
end
-- ==== Proof.KernelBlocks.lean ====
/-
  What the four input blocks of a grid point hold, in terms of the kernel's two arguments.

  Before the launch the host re-shapes the predictions to a 16384 × 1 column and to a 1 × 16384 row, forms the two
  weight vectors "label is 1" and "label is 0" and re-shapes them the same way. The 256 grid points run row tile by row
  tile: point t is row tile t / 16 and column tile t % 16. Its first and third blocks are rows 1024·(t/16) … of the two
  columns, its second and fourth blocks are columns 1024·(t%16) … of the two rows.
-/
import proofs.«146855_j38147899523693_1_alg».proof.Proof.Gen.KernelIdeal.Frame
import proofs.«146855_j38147899523693_1_alg».proof.Proof.PairSums
import proofs.«146855_j38147899523693_1_alg».proof.Proof.LibColumns
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Accum

open Cert.KernelIdeal Cert.KernelIdeal.Gen Cert.PairSums

variable (m : (ℓ : Loc nD τ sig) → Buf (Elt Ideal) ℓ)

/-- The kernel's two arguments on core c, and the two weight vectors the host forms from the labels. -/
abbrev preds (c : Dev nD) : S16384.Idx → EReal := m ((c : Thread nD τ).loc main_arg0)
abbrev labels (c : Dev nD) : S16384.Idx → BitVec 32 := m ((c : Thread nD τ).loc main_arg1)

theorem N256 : cfg0.N = 256 := N_0

/-- Row tile and column tile of a grid point. -/
def rowTile (t : Fin cfg0.N) : Fin 16 := ⟨t.val / 16, by have h : t.val < 256 := lt_of_lt_of_eq t.isLt N256; omega⟩
def colTile (t : Fin cfg0.N) : Fin 16 := ⟨t.val % 16, Nat.mod_lt _ (by decide)⟩

/-- The block index of each window at each grid point, decided over the grid. -/
theorem index_rows : ∀ t : Fin cfg0.N, win0_0.index t (0 : Fin 2) = t.val / 16 ∧ win0_0.index t (1 : Fin 2) = 0
    ∧ win0_2.index t (0 : Fin 2) = t.val / 16 ∧ win0_2.index t (1 : Fin 2) = 0 :=
  (by decide +kernel : ∀ t : Fin grid0.N, win0_0.index t (0 : Fin 2) = t.val / 16 ∧ win0_0.index t (1 : Fin 2) = 0
    ∧ win0_2.index t (0 : Fin 2) = t.val / 16 ∧ win0_2.index t (1 : Fin 2) = 0)
theorem index_out : ∀ t : Fin cfg0.N, win0_4.index t (0 : Fin 3) = t.val / 16 ∧ win0_4.index t (1 : Fin 3) = 0
    ∧ win0_4.index t (2 : Fin 3) = 0 :=
  (by decide +kernel : ∀ t : Fin grid0.N, win0_4.index t (0 : Fin 3) = t.val / 16 ∧ win0_4.index t (1 : Fin 3) = 0
    ∧ win0_4.index t (2 : Fin 3) = 0)
theorem index_cols : ∀ t : Fin cfg0.N, win0_1.index t (0 : Fin 2) = 0 ∧ win0_1.index t (1 : Fin 2) = t.val % 16
    ∧ win0_3.index t (0 : Fin 2) = 0 ∧ win0_3.index t (1 : Fin 2) = t.val % 16 :=
  (by decide +kernel : ∀ t : Fin grid0.N, win0_1.index t (0 : Fin 2) = 0 ∧ win0_1.index t (1 : Fin 2) = t.val % 16
    ∧ win0_3.index t (0 : Fin 2) = 0 ∧ win0_3.index t (1 : Fin 2) = t.val % 16)

/-! ## The arrays the region finds -/

theorem predCol_eq (c : Dev nD) : (V m c main_v6 : S16384x1.Idx → EReal)
    = shapeCast S16384x1 (preds m c) shapeCasts_S16384_S16384x1 := by
  show StableHlo.after hostOps0 (fun b => m (c, b)) (Proc.devRef .tc main_v6) = _
  after_results
  rfl
theorem predRow_eq (c : Dev nD) : (V m c main_v7 : S1x16384.Idx → EReal)
    = shapeCast S1x16384 (preds m c) shapeCasts_S16384_S1x16384 := by
  show StableHlo.after hostOps0 (fun b => m (c, b)) (Proc.devRef .tc main_v7) = _
  after_results
  rfl
theorem posVec_eq (c : Dev nD) : (V m c main_v2 : S16384.Idx → EReal) = weightOf (labels m c) 1#32 := by
  show StableHlo.after hostOps0 (fun b => m (c, b)) (Proc.devRef .tc main_v2) = _
  after_results
  rfl
theorem negVec_eq (c : Dev nD) : (V m c main_v5 : S16384.Idx → EReal) = weightOf (labels m c) 0#32 := by
  show StableHlo.after hostOps0 (fun b => m (c, b)) (Proc.devRef .tc main_v5) = _
  after_results
  rfl
theorem posCol_eq (c : Dev nD) : (V m c main_v8 : S16384x1.Idx → EReal)
    = shapeCast S16384x1 (weightOf (labels m c) 1#32) shapeCasts_S16384_S16384x1 := by
  show StableHlo.after hostOps0 (fun b => m (c, b)) (Proc.devRef .tc main_v8) = _
  after_results
  rfl
theorem negRow_eq (c : Dev nD) : (V m c main_v9 : S1x16384.Idx → EReal)
    = shapeCast S1x16384 (weightOf (labels m c) 0#32) shapeCasts_S16384_S1x16384 := by
  show StableHlo.after hostOps0 (fun b => m (c, b)) (Proc.devRef .tc main_v9) = _
  after_results
  rfl

/-! ## The blocks -/

/-- Row a of the point's first block is prediction 1024·(t/16) + a. -/
theorem predRows (c : Dev nD) (t : Fin cfg0.N) (a : Fin 1024) :
    (iblk m c 0 t : Vec Ideal S1024x1 .f32) (ix2 a 0) = preds m c (ix1 (rowOf (rowTile t) a)) := by
  have e : (iblk m c 0 t : Vec Ideal S1024x1 .f32) (ix2 a 0)
      = (V m c main_v6 : S16384x1.Idx → EReal) (ix2 (rowOf (rowTile t) a) (0 : Fin 1)) := by
    unfold iblk
    rw [View.read_apply]
    show V m c main_v6 _ = V m c main_v6 _
    congr 1
    funext ax
    apply Fin.ext
    match ax with
    | ⟨0, _⟩ =>
      show win0_0.index t (0 : Fin 2) * 1024 + 1 * a.val = 1024 * (t.val / 16) + a.val
      rw [(index_rows t).1]; omega
    | ⟨1, _⟩ =>
      show win0_0.index t (1 : Fin 2) * 1 + 1 * 0 = 0
      rw [(index_rows t).2.1]
  rw [e, predCol_eq]
  exact Cert.LibColumns.shapeCast_a_a1_apply _ _ _ _

/-- Column b of the point's second block is prediction 1024·(t%16) + b. -/
theorem predCols (c : Dev nD) (t : Fin cfg0.N) (b : Fin 1024) :
    (iblk m c 1 t : Vec Ideal S1x1024 .f32) (ix2 0 b) = preds m c (ix1 (rowOf (colTile t) b)) := by
  have e : (iblk m c 1 t : Vec Ideal S1x1024 .f32) (ix2 0 b)
      = (V m c main_v7 : S1x16384.Idx → EReal) (ix2 (0 : Fin 1) (rowOf (colTile t) b)) := by
    unfold iblk
    rw [View.read_apply]
    show V m c main_v7 _ = V m c main_v7 _
    congr 1
    funext ax
    apply Fin.ext
    match ax with
    | ⟨0, _⟩ =>
      show win0_1.index t (0 : Fin 2) * 1 + 1 * 0 = 0
      rw [(index_cols t).1]
    | ⟨1, _⟩ =>
      show win0_1.index t (1 : Fin 2) * 1024 + 1 * b.val = 1024 * (t.val % 16) + b.val
      rw [(index_cols t).2.1]; omega
  rw [e, predRow_eq]
  exact shapeCast_a_1a_apply _ _ _ _

/-- Row a of the point's third block is the "label is 1" weight at 1024·(t/16) + a. -/
theorem posRows (c : Dev nD) (t : Fin cfg0.N) (a : Fin 1024) :
    (iblk m c 2 t : Vec Ideal S1024x1 .f32) (ix2 a 0) = weightOf (labels m c) 1#32 (ix1 (rowOf (rowTile t) a)) := by
  have e : (iblk m c 2 t : Vec Ideal S1024x1 .f32) (ix2 a 0)
      = (V m c main_v8 : S16384x1.Idx → EReal) (ix2 (rowOf (rowTile t) a) (0 : Fin 1)) := by
    unfold iblk
    rw [View.read_apply]
    show V m c main_v8 _ = V m c main_v8 _
    congr 1
    funext ax
    apply Fin.ext
    match ax with
    | ⟨0, _⟩ =>
      show win0_2.index t (0 : Fin 2) * 1024 + 1 * a.val = 1024 * (t.val / 16) + a.val
      rw [(index_rows t).2.2.1]; omega
    | ⟨1, _⟩ =>
      show win0_2.index t (1 : Fin 2) * 1 + 1 * 0 = 0
      rw [(index_rows t).2.2.2]
  rw [e, posCol_eq]
  exact Cert.LibColumns.shapeCast_a_a1_apply _ _ _ _

/-- Column b of the point's fourth block is the "label is 0" weight at 1024·(t%16) + b. -/
theorem negCols (c : Dev nD) (t : Fin cfg0.N) (b : Fin 1024) :
    (iblk m c 3 t : Vec Ideal S1x1024 .f32) (ix2 0 b) = weightOf (labels m c) 0#32 (ix1 (rowOf (colTile t) b)) := by
  have e : (iblk m c 3 t : Vec Ideal S1x1024 .f32) (ix2 0 b)
      = (V m c main_v9 : S1x16384.Idx → EReal) (ix2 (0 : Fin 1) (rowOf (colTile t) b)) := by
    unfold iblk
    rw [View.read_apply]
    show V m c main_v9 _ = V m c main_v9 _
    congr 1
    funext ax
    apply Fin.ext
    match ax with
    | ⟨0, _⟩ =>
      show win0_3.index t (0 : Fin 2) * 1 + 1 * 0 = 0
      rw [(index_cols t).2.2.1]
    | ⟨1, _⟩ =>
      show win0_3.index t (1 : Fin 2) * 1024 + 1 * b.val = 1024 * (t.val % 16) + b.val
      rw [(index_cols t).2.2.2]; omega
  rw [e, negRow_eq]
  exact shapeCast_a_1a_apply _ _ _ _

end Cert.KernelIdeal.Accum

end
-- ==== Proof.KernelAccum.lean ====
/-
  The accumulator over the grid, and the array the kernel's region leaves.

  Point t works on tile (t / 16, t % 16). At a row's first tile the accumulator is reset and ends at that tile's
  total; at every later tile it ends at what the point before left plus the tile's total. So after point t it holds
  the total of the first t % 16 + 1 tiles of row t / 16 (by induction on the point), after a row's last tile the row's
  total, and that is what the point copies to the output block. The sixteen write-backs, one per row, cover the
  16 × 1 × 1 result array, which ends holding the row totals.
-/
import proofs.«146855_j38147899523693_1_alg».proof.Proof.KernelPieces
import proofs.«146855_j38147899523693_1_alg».proof.Proof.TilePayload
import proofs.«146855_j38147899523693_1_alg».proof.Proof.KernelBlocks

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.PairSums

variable (m : (ℓ : Loc nD τ sig) → Buf (Elt Ideal) ℓ)

/-- The two weight vectors on core c. -/
abbrev posW (c : Dev nD) : S16384.Idx → EReal := weightOf (labels m c) 1#32
abbrev negW (c : Dev nD) : S16384.Idx → EReal := weightOf (labels m c) 0#32

/-- The total the body forms from point t's four blocks is tile (t / 16, t % 16) of the pair sum. -/
theorem blockSum_eq (c : Dev nD) (t : Fin cfg0.N) :
    blockSum (iblk m c 0 t) (iblk m c 1 t) (iblk m c 2 t) (iblk m c 3 t) = tileSum (preds m c) (posW m c) (negW m c) (rowTile t) (colTile t) := by
  unfold blockSum tileSum
  refine Finset.sum_congr rfl fun a _ => Finset.sum_congr rfl fun b _ => ?_
  rw [predRows, predCols, posRows, negCols]

/-- After a row's first tile the accumulator holds that tile's total. -/
theorem acc_first (c : Dev nD) (t : Fin cfg0.N) (h0 : t.val % 16 = 0) :
    (outsAt0 m c t.val t.isLt).2 = fun _ => partialRow (preds m c) (posW m c) (negW m c) (rowTile t) 1 := by
  have h1 : ¬t.val % 16 = 15 := by omega
  rw [outsAt0_A m c t h0 h1]
  dsimp only
  refine (scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)).trans ?_
  funext j
  rw [pay3_eq, pay2_eq, blockSum_eq, partialRow_one]
  have hc : colTile t = ⟨0, by decide⟩ := Fin.ext h0
  unfold tileN
  rw [dif_pos (by decide : 0 < 16), hc]
  simp only [zero, Ideal.ofBits_zero_f32, zero_add]

/-- After any later tile it holds what the point before left plus this tile's total. -/
theorem acc_next (c : Dev nD) (t : Fin cfg0.N) (h0 : ¬t.val % 16 = 0) (prev : EReal)
    (hprev : (outsAt0 m c (t.val - 1) (Nat.lt_of_le_of_lt (Nat.sub_le _ _) t.isLt)).2 = fun _ => prev) :
    (outsAt0 m c t.val t.isLt).2
      = fun _ => prev + tileSum (preds m c) (posW m c) (negW m c) (rowTile t) (colTile t) := by
  by_cases h1 : t.val % 16 = 15
  · rw [outsAt0_C m c t h0 h1]
    dsimp only
    refine (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
      (outsAt0 m c (t.val - 1) (Nat.lt_of_le_of_lt (Nat.sub_le _ _) t.isLt)).2).trans ?_
    funext j
    rw [pay3_eq, hprev, blockSum_eq]
  · rw [outsAt0_B m c t h0 h1]
    dsimp only
    refine (scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t)
      (outsAt0 m c (t.val - 1) (Nat.lt_of_le_of_lt (Nat.sub_le _ _) t.isLt)).2).trans ?_
    funext j
    rw [pay3_eq, hprev, blockSum_eq]

/-- After point n the accumulator holds the total of the first n % 16 + 1 tiles of row n / 16. -/
theorem acc_eq (c : Dev nD) : ∀ (n : ℕ) (h : n < cfg0.N),
    (outsAt0 m c n h).2 = fun _ => partialRow (preds m c) (posW m c) (negW m c) (rowTile ⟨n, h⟩) (n % 16 + 1)
  | 0, h => acc_first m c ⟨0, h⟩ rfl
  | n + 1, h => by
    have hN : n + 1 < 256 := lt_of_lt_of_eq h N256
    by_cases h0 : (n + 1) % 16 = 0
    · rw [acc_first m c ⟨n + 1, h⟩ h0, h0]
    · rw [acc_next m c ⟨n + 1, h⟩ h0 _ (acc_eq c n (Nat.lt_of_succ_lt h))]
      funext j
      have hr : rowTile ⟨n, Nat.lt_of_succ_lt h⟩ = rowTile ⟨n + 1, h⟩ := Fin.ext (by
        show n / 16 = (n + 1) / 16
        omega)
      have hk : (n + 1) % 16 + 1 = (n % 16 + 1) + 1 := by omega
      rw [hk, partialRow_succ _ _ _ _ (n % 16 + 1), hr]
      congr 1
      unfold tileN
      have hlt : n % 16 + 1 < 16 := by omega
      rw [dif_pos hlt]
      congr 1
      exact Fin.ext (by show (n + 1) % 16 = n % 16 + 1; omega)

/-- At a row's last tile the output block is the row's total. -/
theorem out_eq (c : Dev nD) (t : Fin cfg0.N) (h1 : t.val % 16 = 15) :
    (outsAt0 m c t.val t.isLt).1 = fun _ => rowSum (preds m c) (posW m c) (negW m c) (rowTile t) := by
  have h0 : ¬t.val % 16 = 0 := by omega
  have e : (outsAt0 m c t.val t.isLt).1 = k0_pay1 (F := Ideal) (outsAt0 m c t.val t.isLt).2 := by
    rw [outsAt0_C m c t h0 h1]
    dsimp only
    rw [out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2,
      scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)
        (outsAt0 m c (t.val - 1) (Nat.lt_of_le_of_lt (Nat.sub_le _ _) t.isLt)).2]
  rw [e, acc_eq m c t.val t.isLt, h1]
  funext k
  rw [pay1_const, partialRow_full]

/-! ## The result array -/

/-- What the 16 × 1 × 1 result array ends holding: entry I is row I's total. -/
abbrev rowTotals (c : Dev nD) : Buf (Elt Ideal) ((c : Thread nD τ).loc main_v10) :=
  fun (i : S16x1x1.Idx) => rowSum (preds m c) (posW m c) (negW m c) (i 0 : Fin 16)

/-- The write-back at a row's last tile writes that row's entry. -/
theorem flushed_eq (c : Dev nD) (t : Fin cfg0.N) (hf : (cfg0.win 4).flush t = true) :
    (dats m 0 c).flushed 4 t = ((cfg0.win 4).blk t).view.read (Elt Ideal) (rowTotals m c) := by
  have h1 : t.val % 16 = 15 := (flush0_4 t).mp hf
  show (cfg0.win 4).cut (grid0.coords t) ((dats m 0 c).after 4 t) = _
  rw [after0_4, out_eq m c t h1]
  funext y
  show rowSum (preds m c) (posW m c) (negW m c) (rowTile t)
    = rowSum (preds m c) (posW m c) (negW m c) ((((cfg0.win 4).blk t).view.emb y) 0 : Fin 16)
  congr 1
  apply Fin.ext
  show t.val / 16 = win0_4.index t (0 : Fin 3) * 1 + 1 * (y 0).val
  have hy : (y 0).val < 1 := (y 0).isLt
  rw [(index_out t).1]; omega

/-- An index of the result array is in point t's block iff each coordinate is in the block's range. -/
theorem mem_outBlk (t : Fin cfg0.N) (i : S16x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v10).slice (win0_4.rect t)).set ↔ _
  rw [View.set_slice_whole, Rect.mem_set_unit]
  exact Iff.rfl

/-- Entry I is written back at the last tile of row I. -/
theorem covered (i : S16x1x1.Idx) :
    ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 1 := (i 2).isLt
  have hlt : 16 * (i 0).val + 15 < cfg0.N := lt_of_lt_of_eq (by omega : 16 * (i 0).val + 15 < 256) N256.symm
  refine ⟨⟨16 * (i 0).val + 15, hlt⟩, (flush0_4 _).mpr (by show (16 * (i 0).val + 15) % 16 = 15; omega), ?_⟩
  rw [mem_outBlk]
  obtain ⟨e0, e1, e2⟩ := index_out ⟨16 * (i 0).val + 15, hlt⟩
  have e0' : win0_4.index ⟨16 * (i 0).val + 15, hlt⟩ (0 : Fin 3) = (16 * (i 0).val + 15) / 16 := e0
  intro a
  match a with
  | ⟨0, _⟩ =>
    show win0_4.index ⟨16 * (i 0).val + 15, hlt⟩ (0 : Fin 3) * 1 ≤ (i 0).val
      ∧ (i 0).val < win0_4.index ⟨16 * (i 0).val + 15, hlt⟩ (0 : Fin 3) * 1 + 1
    rw [e0']; omega
  | ⟨1, _⟩ =>
    show win0_4.index ⟨16 * (i 0).val + 15, hlt⟩ (1 : Fin 3) * 1 ≤ (i 1).val
      ∧ (i 1).val < win0_4.index ⟨16 * (i 0).val + 15, hlt⟩ (1 : Fin 3) * 1 + 1
    rw [e1]; omega
  | ⟨2, _⟩ =>
    show win0_4.index ⟨16 * (i 0).val + 15, hlt⟩ (2 : Fin 3) * 1 ≤ (i 2).val
      ∧ (i 2).val < win0_4.index ⟨16 * (i 0).val + 15, hlt⟩ (2 : Fin 3) * 1 + 1
    rw [e2]; omega

/-- So the result array ends holding the sixteen row totals. -/
theorem final_out (c : Dev nD) : (dats m 0 c).arrAt 4 cfg0.N = rowTotals m c :=
  (dats m 0 c).arrAt_eq_of_cover 4 (rowTotals m c) (flushed_eq m c) (covered)

end Cert.KernelIdeal.Accum

end
-- ==== Proof.KernelRun.lean ====
/-
  The kernel's run, read: after the region the host adds the sixteen row totals from the literal zero, counts the two
  kinds of label the same way, and divides the first sum by the product of the counts. The sixteen row totals regroup
  to the total over all pairs, so the result entry is the loss of PairSums; the two arguments end unchanged.
-/
import proofs.«146855_j38147899523693_1_alg».proof.Proof.KernelAccum

noncomputable section

open scoped BigOperators
open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.PairSums

variable (m : (ℓ : Loc nD τ sig) → Buf (Elt Ideal) ℓ) (ρ : Dev nD → PrngReg)

/-- The host's sum of the result array from the literal zero is zero plus the total over all pairs. -/
theorem sum_rowTotals (c : Dev nD) (i : S_.Idx) :
    Host.reduceAdd (F := Ideal) (rowTotals m c) (constant S_ .f32 0x00000000#32) reducesTo_S16x1x1_S_d0_1_2 h_S_ i
      = zero + pairTotal (preds m c) (posW m c) (negW m c) := by
  simp only [Host.reduceAdd, Ideal.hostReduceAdd_def]
  refine (Ideal.hostReduceAdd_total reducesTo_S16x1x1_S_d0_1_2 (fun b => b.elim0) (rowTotals m c) _ i).trans ?_
  rw [sum_rows16, ← sum_tiles]
  rfl

/-- The host's count of a label: zero plus the sum of its weight vector. -/
theorem sum_weight (c : Dev nD) (k : BitVec 32) (i : S_.Idx) :
    Host.reduceAdd (F := Ideal) (weightOf (labels m c) k) (constant S_ .f32 0x00000000#32) reducesTo_S16384_S_d0 h_S_ i
      = countOf (labels m c) k := by
  simp only [Host.reduceAdd, Ideal.hostReduceAdd_def]
  exact Ideal.hostReduceAdd_total reducesTo_S16384_S_d0 (fun b => b.elim0) (weightOf (labels m c) k) _ i

/-- The host's quotient of one entry by a product of two, at its index. -/
theorem hostQuot_apply (a b d : S_.Idx → EReal) (i : S_.Idx) :
    Host.divf (F := Ideal) (φ := .f32) a (mulf (F := Ideal) (φ := .f32) b d) i = Ideal.div (a i) (b i * d i) := rfl

/-- The lines after the region leave the loss in the result buffer. -/
theorem tail_eq (c : Dev nD) :
    Pipeline.afterTail₀ cfgs (dats m) 0 (V0 m) [hostOps1] c main_v15 = fun _ => loss (preds m c) (labels m c) := by
  unfold Pipeline.afterTail₀
  show StableHlo.after hostOps1 _ (Proc.devRef .tc main_v15) = _
  after_results
  rw [show Pipeline.withArrays (cfgs 0).spec c (V0 m c) (fun w => (dats m 0 c).arrAt w (cfgs 0).N) (Proc.devRef .tc main_v10)
      = rowTotals m c from (Pipeline.withArrays_arr spec0 launch0.win.arr_inj c _ _ 4).trans (final_out m c)]
  rw [Pipeline.withArrays_of_ne _ c (V0 m c) _ main_v2 (by decide), Pipeline.withArrays_of_ne _ c (V0 m c) _ main_v5 (by decide)]
  have hp : V0 m c (Proc.devRef .tc main_v2) = weightOf (labels m c) 1#32 := posVec_eq m c
  have hn : V0 m c (Proc.devRef .tc main_v5) = weightOf (labels m c) 0#32 := negVec_eq m c
  rw [hp, hn]
  funext i
  rw [hostQuot_apply, sum_rowTotals, sum_weight, sum_weight]
  rfl

/-- Every weakly fair execution of the kernel's program terminates with the loss in its result buffer and its two
    arguments unchanged. -/
theorem run : θ_run defs (onTc (τ := τ) (main (F := Ideal))) ⟨m, fun _ => 0, ρ⟩ fun r => ∀ c : Dev nD,
      r.2.mem ((c.tc : Thread nD τ).loc main_v15) = (fun _ => loss (preds m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v15 (Pipeline.mem_restRefs_of main_v15 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Accum

end
-- ==== Proof.RefLoss.lean ====
/-
  The reference at the extended reals is the loss of PairSums: its one result entry is the host's quotient of
  "zero + the sum over all 16384 × 16384 pairs" by the product of the two label counts. Each stage is read at an index:
  the two broadcasts of the predictions read row r and column c, the weights likewise, the elementwise stages are the
  extended reals' operations, and the two-axis sum is the double sum over (r, c).
-/
import proofs.«146855_j38147899523693_1_alg».proof.Proof.Gen.ReferenceIdeal.Read
import proofs.«146855_j38147899523693_1_alg».proof.Proof.PairSums
import Idealize.ShloMosaic.Lib.ValueIdx

noncomputable section

open scoped BigOperators
open Idealize.ShloMosaic Idealize.ShloMosaic.ValueIdx

namespace Cert.ReferenceIdeal.RefLoss

open Cert.ReferenceIdeal Cert.ReferenceIdeal.Read Cert.PairSums

variable (p : (⟨S16384, .f32⟩ : BufTy).Contents (Elt Ideal)) (tg : (⟨S16384, .i32⟩ : BufTy).Contents (Elt Ideal))

theorem row_pred (r c : Fin 16384) : idx_main_v6 (idx_main_v8 (ix2 r c)) = ix1 r :=
  funext fun a => Fin.ext (by match a with | ⟨0, _⟩ => rfl)
theorem col_pred (r c : Fin 16384) : idx_main_v7 (idx_main_v9 (ix2 r c)) = ix1 c :=
  funext fun a => Fin.ext (by match a with | ⟨0, _⟩ => rfl)
theorem row_weight (r c : Fin 16384) : idx_main_v18 (idx_main_v20 (ix2 r c)) = ix1 r :=
  funext fun a => Fin.ext (by match a with | ⟨0, _⟩ => rfl)
theorem col_weight (r c : Fin 16384) : idx_main_v19 (idx_main_v21 (ix2 r c)) = ix1 c :=
  funext fun a => Fin.ext (by match a with | ⟨0, _⟩ => rfl)

/-- The row weights are "label is 1", the column weights "label is 0". -/
theorem pos_eq (i : S16384.Idx) : val_main_v2 (F := Ideal) tg i = weightOf tg 1#32 i := by
  rw [val_main_v2_apply, val_main_v1_apply, val_main_v0_apply, val_main_c_apply]; rfl
theorem neg_eq (i : S16384.Idx) : val_main_v5 (F := Ideal) tg i = weightOf tg 0#32 i := by
  rw [val_main_v5_apply, val_main_v4_apply, val_main_v3_apply, val_main_c_0_apply]; rfl

/-- The weighted pair array at (r, c). -/
theorem pair_eq (r c : Fin 16384) :
    val_main_v26 (F := Ideal) p tg (ix2 r c)
      = pairTerm (p (ix1 r)) (p (ix1 c)) (weightOf tg 1#32 (ix1 r)) (weightOf tg 0#32 (ix1 c)) := by
  simp only [val_main_v26_apply, val_main_v17_apply, val_main_v13_apply, val_main_v12_apply, val_main_v11_apply,
    val_main_cst_apply, val_main_v10_apply, val_main_v8_apply, val_main_v6_apply, val_main_v9_apply, val_main_v7_apply,
    val_main_v16_apply, val_main_v15_apply, val_main_cst_1_apply, val_main_v14_apply, val_main_call0_v0_apply,
    val_main_call0_cst_apply, val_main_v22_apply, val_main_v20_apply, val_main_v18_apply, val_main_v21_apply,
    val_main_v19_apply, row_pred, col_pred, row_weight, col_weight, pos_eq, neg_eq]
  rfl

/-- The reference's result entry is the loss. -/
theorem result_eq (i : S_.Idx) : val_main_v28 (F := Ideal) p tg i = loss p tg := by
  rw [val_main_v28_apply, val_main_v27_apply, val_main_v25_apply, val_main_v23_apply, val_main_v24_apply,
    val_main_cst_4_apply, val_main_cst_2_apply, val_main_cst_3_apply, sum_idx2]
  unfold loss countOf pairTotal
  simp only [pair_eq, pos_eq, neg_eq]
  rfl

end Cert.ReferenceIdeal.RefLoss

end
-- ==== Proof.lean ====
/-
  The claim: the tiled pairwise-loss kernel and its reference compute the same number over the extended reals.

  With p the predictions, u = [label = 1] and v = [label = 0] as floats, both programs return

      (0 + Σ_{r, c} ((1 - (p r - p c))² + 1 · max (1 - (p r - p c)) 0) · (u r · v c)) / ((0 + Σ u) · (0 + Σ v)).

  The reference sums the 16384 × 16384 pair array in one reduction. The kernel cuts it into 16 × 16 tiles of
  1024 × 1024 pairs, accumulates a row of tiles in a scratch cell, writes each row's total to a 16 × 1 × 1 array, and
  the host adds the sixteen totals. Addition on the extended reals is commutative and associative, so the regrouping
  changes nothing, and no finiteness of the inputs is used. The denominators are the same term in both programs.
  The three frames are the generated frame runs (the reference's is its run with the result dropped); the ideal pass
  rewrote nothing, so the preservation claim is trivial.
-/
import proofs.«146855_j38147899523693_1_alg».proof.Defs
import proofs.«146855_j38147899523693_1_alg».proof.Proof.Gen.Kernel
import proofs.«146855_j38147899523693_1_alg».proof.Proof.Gen.Kernel.Skeleton
import proofs.«146855_j38147899523693_1_alg».proof.Proof.Gen.Kernel.Launch
import proofs.«146855_j38147899523693_1_alg».proof.Proof.Gen.Kernel.Points
import proofs.«146855_j38147899523693_1_alg».proof.Proof.Gen.Kernel.Frame
import proofs.«146855_j38147899523693_1_alg».proof.Proof.Gen.KernelIdeal
import proofs.«146855_j38147899523693_1_alg».proof.Proof.Gen.KernelIdeal.Skeleton
import proofs.«146855_j38147899523693_1_alg».proof.Proof.Gen.KernelIdeal.Launch
import proofs.«146855_j38147899523693_1_alg».proof.Proof.Gen.KernelIdeal.Points
import proofs.«146855_j38147899523693_1_alg».proof.Proof.Gen.KernelIdeal.Frame
import proofs.«146855_j38147899523693_1_alg».proof.Proof.Gen.ReferenceIdeal
import proofs.«146855_j38147899523693_1_alg».proof.Proof.Gen.Pre_finite_inputs
import proofs.«146855_j38147899523693_1_alg».proof.Proof.Gen.ReferenceIdeal.Run
import proofs.«146855_j38147899523693_1_alg».proof.Proof.Gen.ReferenceIdeal.Read
import proofs.«146855_j38147899523693_1_alg».proof.Proof.KernelRun
import proofs.«146855_j38147899523693_1_alg».proof.Proof.RefLoss
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2)
    (Cert.ReferenceIdeal.Value.run (F := Ideal) m ρ)

/-- Both programs end with the loss of the (agreeing) arguments in their result buffer. -/
theorem algebraic : Cert.algebraic_KernelIdeal_ReferenceIdeal := by
  intro m ρ m' ρ' _ hagree
  refine ⟨fun c => fun _ => Cert.PairSums.loss (Cert.KernelIdeal.Accum.preds m c) (Cert.KernelIdeal.Accum.labels m c),
    Cert.KernelIdeal.Accum.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq]
  funext i
  rw [Cert.ReferenceIdeal.RefLoss.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
